-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S64x1024 : Shape := ⟨2, ![64, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S2048x1024 .f32) (main_arg1 : FVec F S64x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S2048x1024 : Shape := ⟨2, ![2048, 1024]⟩
abbrev S64x1024 : Shape := ⟨2, ![64, 1024]⟩
abbrev S2048x64x1024 : Shape := ⟨3, ![2048, 64, 1024]⟩
abbrev S32x1024 : Shape := ⟨2, ![32, 1024]⟩
abbrev S32x64x1024 : Shape := ⟨3, ![32, 64, 1024]⟩
abbrev S63x1024 : Shape := ⟨2, ![63, 1024]⟩
abbrev S1x63x1024 : Shape := ⟨3, ![1, 63, 1024]⟩
abbrev S32x63x1024 : Shape := ⟨3, ![32, 63, 1024]⟩
abbrev S32x1x1024 : Shape := ⟨3, ![32, 1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S64x1024, .f32⟩
  | .hbm, ⟨2, _⟩ => ⟨S2048x64x1024, .f32⟩
  | .local _ .vmem, ⟨0, _⟩ => ⟨S32x1024, .f32⟩
  | .local _ .vmem, ⟨1, _⟩ => ⟨S32x1024, .f32⟩
  | .local _ .vmem, ⟨2, _⟩ => ⟨S64x1024, .f32⟩
  | .local _ .vmem, ⟨3, _⟩ => ⟨S32x64x1024, .f32⟩
  | .local _ .vmem, ⟨4, _⟩ => ⟨S32x64x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x1024_S63x1024_1_0 : ∀ a, (![1, 0] : Fin 2 → Nat) a + S63x1024.size a ≤ S64x1024.size a
  h_S63x1024 : 0 < S63x1024.numel
  shapeCasts_S63x1024_S1x63x1024 : S63x1024.ShapeCasts S1x63x1024
  shapeCasts_S1x63x1024_S1x63x1024 : S1x63x1024.ShapeCasts S1x63x1024
  broadcasts_S1x63x1024_S32x63x1024 : S1x63x1024.Broadcasts S32x63x1024
  inb_S32x64x1024_S32x63x1024_0_1_0 : ∀ a, (![0, 1, 0] : Fin 3 → Nat) a + S32x63x1024.size a ≤ S32x64x1024.size a
  h_S32x63x1024 : 0 < S32x63x1024.numel
  inb_S32x1024_S32x1024_0_0 : ∀ a, (![0, 0] : Fin 2 → Nat) a + S32x1024.size a ≤ S32x1024.size a
  h_S32x1024 : 0 < S32x1024.numel
  shapeCasts_S32x1024_S32x1x1024 : S32x1024.ShapeCasts S32x1x1024
  inb_S32x64x1024_S32x1x1024_0_0_0 : ∀ a, (![0, 0, 0] : Fin 3 → Nat) a + S32x1x1024.size a ≤ S32x64x1024.size a
  h_S32x1x1024 : 0 < S32x1x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S2048x1024.size a
  hwx0_0 : ∀ i : grid0.Coords, EltTy.bits .f32 = 32 ∨ (Rect.block (s := S2048x1024) S32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64x1024.size a ≤ S2048x64x1024.size a
  hwx0_2 : ∀ i : grid0.Coords, EltTy.bits .f32 = 32 ∨ (Rect.block (s := S2048x64x1024) S32x64x1024.size (cc0_transform_2 i) (hinb0_2 i)).WholeWords (EltTy.packing .f32)

variable [Facts₀]

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S64x1024 : Shape := ⟨2, ![64, 1024]⟩
abbrev S63x1024 : Shape := ⟨2, ![63, 1024]⟩
abbrev S1x63x1024 : Shape := ⟨3, ![1, 63, 1024]⟩
abbrev S2048x63x1024 : Shape := ⟨3, ![2048, 63, 1024]⟩
abbrev S2048x1x1024 : Shape := ⟨3, ![2048, 1, 1024]⟩
abbrev S2048x64x1024 : Shape := ⟨3, ![2048, 64, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x1024, .f32⟩
  | .hbm, ⟨2, _⟩ => ⟨S63x1024, .f32⟩
  | .hbm, ⟨3, _⟩ => ⟨S1x63x1024, .f32⟩
  | .hbm, ⟨4, _⟩ => ⟨S63x1024, .f32⟩
  | .hbm, ⟨5, _⟩ => ⟨S2048x63x1024, .f32⟩
  | .hbm, ⟨6, _⟩ => ⟨S2048x1x1024, .f32⟩
  | .hbm, ⟨7, _⟩ => ⟨S2048x64x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S64x1024_S63x1024_1_0 : S64x1024.Slices ![1, 0] S63x1024
  bcast_S63x1024_S1x63x1024_1_2 : S63x1024.BroadcastsInDim S1x63x1024 (![1, 2] : Fin 2 → Fin S1x63x1024.rank)
  bcast_S1x63x1024_S2048x63x1024_0_1_2 : S1x63x1024.BroadcastsInDim S2048x63x1024 (![0, 1, 2] : Fin 3 → Fin S2048x63x1024.rank)
  bcast_S2048x1024_S2048x1x1024_0_2 : S2048x1024.BroadcastsInDim S2048x1x1024 (![0, 2] : Fin 2 → Fin S2048x1x1024.rank)
  concatenates_S2048x1x1024_S2048x63x1024_S2048x64x1024_d1 : Shape.Concatenates [S2048x1x1024, S2048x63x1024] S2048x64x1024 1

variable [Facts₀]

class Facts : Prop extends Facts₀ where

variable [Facts]
-- ==== Proof.WindowSpec.lean ====
/-
  The sliding-window memory as one function of its two arguments.

  At every step `t` the window keeps 64 slots of 1024 features: slot 0 is overwritten with the step's input row,
  and slots 1 … 63 are never touched, so they hold the initial memory's rows 1 … 63 at every step. The whole
  history `[2048, 64, 1024]` is therefore, index by index,

      window inp mem (t, l, d) = inp (t, d)   if l = 0
                               = mem (l, d)   otherwise.

  No arithmetic happens: both programs only move values, so the statement holds over any element type and
  the precondition (finite inputs) is never used. The same function over 32 steps instead of 2048 describes
  one block of 32 consecutive steps, which is what one grid point of the kernel fills.
-/
import Idealize.ShloMosaic.Lib.ValueIdx

namespace Cert.SlidingWindow

open Idealize.ShloMosaic Idealize.ShloMosaic.ValueIdx

/-- The history of the window over all 2048 steps: slot 0 of step `t` is input row `t`, slot `l ≥ 1` is row `l`
    of the initial memory. -/
def window {α : Type} (inp : (⟨2, ![2048, 1024]⟩ : Shape).Idx → α) (mem : (⟨2, ![64, 1024]⟩ : Shape).Idx → α) :
    (⟨3, ![2048, 64, 1024]⟩ : Shape).Idx → α :=
  fun i => if (i 1).val = 0 then inp (ix2 (i 0) (i 2)) else mem (ix2 (i 1) (i 2))

/-- The same over a block of 32 consecutive steps, from the 32 input rows of the block. -/
def windowBlock {α : Type} (inp : (⟨2, ![32, 1024]⟩ : Shape).Idx → α) (mem : (⟨2, ![64, 1024]⟩ : Shape).Idx → α) :
    (⟨3, ![32, 64, 1024]⟩ : Shape).Idx → α :=
  fun y => if (y 1).val = 0 then inp (ix2 (y 0) (y 2)) else mem (ix2 (y 1) (y 2))

theorem window_slot0 {α : Type} (inp : (⟨2, ![2048, 1024]⟩ : Shape).Idx → α) (mem : (⟨2, ![64, 1024]⟩ : Shape).Idx → α)
    (i : (⟨3, ![2048, 64, 1024]⟩ : Shape).Idx) (h : (i 1).val = 0) : window inp mem i = inp (ix2 (i 0) (i 2)) := by
  unfold window; rw [if_pos h]

theorem window_tail {α : Type} (inp : (⟨2, ![2048, 1024]⟩ : Shape).Idx → α) (mem : (⟨2, ![64, 1024]⟩ : Shape).Idx → α)
    (i : (⟨3, ![2048, 64, 1024]⟩ : Shape).Idx) (h : (i 1).val ≠ 0) : window inp mem i = mem (ix2 (i 1) (i 2)) := by
  unfold window; rw [if_neg h]

theorem windowBlock_slot0 {α : Type} (inp : (⟨2, ![32, 1024]⟩ : Shape).Idx → α) (mem : (⟨2, ![64, 1024]⟩ : Shape).Idx → α)
    (y : (⟨3, ![32, 64, 1024]⟩ : Shape).Idx) (h : (y 1).val = 0) : windowBlock inp mem y = inp (ix2 (y 0) (y 2)) := by
  unfold windowBlock; rw [if_pos h]

theorem windowBlock_tail {α : Type} (inp : (⟨2, ![32, 1024]⟩ : Shape).Idx → α) (mem : (⟨2, ![64, 1024]⟩ : Shape).Idx → α)
    (y : (⟨3, ![32, 64, 1024]⟩ : Shape).Idx) (h : (y 1).val ≠ 0) : windowBlock inp mem y = mem (ix2 (y 1) (y 2)) := by
  unfold windowBlock; rw [if_neg h]

end Cert.SlidingWindow
-- ==== Proof.KernelBlock.lean ====
/-
  What one grid point of the kernel leaves in its output block.

  At a grid point the body sees 32 consecutive input rows `x0 : [32, 1024]` and the whole initial memory
  `x1 : [64, 1024]`, and fills its `[32, 64, 1024]` block by two stores: rows 1 … 63 of the memory, given a
  leading unit axis and broadcast over the 32 steps, into slots 1 … 63; and the 32 input rows, each given a middle
  unit axis, into slot 0. The two rectangles are disjoint and together cover the block, and each stored value is
  the block-sized window function `windowBlock x0 x1` read under its rectangle. So the block is `windowBlock x0 x1`.
-/
import proofs.«151617_j72627896975940_1_alg».proof.Proof.Gen.KernelIdeal.Frame
import proofs.«151617_j72627896975940_1_alg».proof.Proof.WindowSpec
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Cert.SlidingWindow
open Idealize.ShloMosaic Idealize.ShloMosaic.TcCoe Idealize.ShloMosaic.ValueIdx Idealize.ShloMosaic.Tactic Idealize.SL.Sem

variable {F : FTy → Type} [FloatOps F]

theorem zero2 : (![0, 0] : Fin 2 → Nat) = fun _ => 0 := funext fun a => by fin_cases a <;> rfl

/-- The input rows with a middle unit axis: at `(a, u, d)` the row `a` at feature `d`. -/
theorem rows_payload (v : Vec F S32x1024 .f32) (a : Fin 32) (u : Fin 1) (d : Fin 1024) :
    k0_pay2 v (ix3 a u d) = v (ix2 a d) := by
  unfold k0_pay2
  refine shapeCast_apply v shapeCasts_S32x1024_S32x1x1024 (ix3 a u d) (ix2 a d) ?_
  rw [Shape.rowMajor_val_two, Shape.rowMajor_val_three]
  have hu : u.val = 0 := by omega
  show a.val * 1024 + d.val = (a.val * 1 + u.val) * 1024 + d.val
  rw [hu, Nat.mul_one, Nat.add_zero]

/-- The memory's tail broadcast over the steps: at `(a, l, d)` the tail's row `l` at feature `d`, whatever the step. -/
theorem tail_payload (v : Vec F S63x1024 .f32) (a : Fin 32) (l : Fin 63) (d : Fin 1024) :
    k0_pay1 v (ix3 a l d) = v (ix2 l d) := by
  unfold k0_pay1
  refine (broadcastTo_apply _ broadcasts_S1x63x1024_S32x63x1024 (ix3 a l d) (ix3 (0 : Fin 1) l d) fun ax => ?_).trans ?_
  · match ax with
    | ⟨0, _⟩ => rfl
    | ⟨1, _⟩ => rfl
    | ⟨2, _⟩ => rfl
  · rw [shapeCast_self]
    exact shapeCast_ab_1ab_apply v shapeCasts_S63x1024_S1x63x1024 (0 : Fin 1) l d

/-- THE BLOCK a grid point leaves: the window function over the point's 32 input rows and the memory. The two stored
    pieces (slot 0 from the input rows; slots 1 … 63 from the memory's tail) cover the block, and each is the window
    function under its rectangle, so the block reads as that function everywhere. -/
theorem block_eq (c : Dev nD) (i : grid0.Coords) (arg1 : Memref sig .tc .vmem S32x1024 .f32) (harg1 : arg1.IsWhole)
    (arg2 : Memref sig .tc .vmem S64x1024 .f32) (harg2 : arg2.IsWhole) (arg3 : Memref sig .tc .vmem S32x64x1024 .f32) (harg3 : arg3.IsWhole)
    (x0 : Vec F S32x1024 .f32) (x1 : Vec F S64x1024 .f32) :
    out0_A_2 c i arg1 harg1 arg2 harg2 arg3 harg3 x0 x1 = windowBlock x0 x1 := by
  unfold out0_A_2
  rw [View.read_writes_eq_canon _ _ _ (cover0_A_2 c i arg1 harg1 arg2 harg2 arg3 harg3 x0 x1)]
  funext y
  refine View.canon_apply_of_pieces (windowBlock x0 x1) _ ?_ y (cover0_A_2 c i arg1 harg1 arg2 harg2 arg3 harg3 x0 x1 y)
  unfold kernelRun0_A
  dsimp only
  sl_unfold_words
  simp only [View.readAt_eq_ld, harg1.read_unread, harg2.read_unread, View.ld_unit_zero (S := S32x1024) zero2]
  intro p hp
  rcases List.mem_cons.mp hp with rfl | hp
  · -- slot 0: the input rows
    intro (x : S32x1x1024.Idx)
    obtain ⟨a, u, d, rfl⟩ : ∃ (a : Fin 32) (u : Fin 1) (d : Fin 1024), x = ix3 a u d := ⟨x 0, x 1, x 2, eq_ix3 x⟩
    show k0_pay2 x0 (ix3 a u d) = windowBlock x0 x1 _
    have hu : u.val = 0 := by omega
    refine (rows_payload x0 a u d).trans (Eq.symm ((windowBlock_slot0 x0 x1 _ ?_).trans ?_))
    · show 0 + 1 * u.val = 0
      omega
    · refine congrArg x0 (funext fun ax => Fin.ext ?_)
      match ax with
      | ⟨0, _⟩ => show 0 + 1 * a.val = a.val; omega
      | ⟨1, _⟩ => show 0 + 1 * d.val = d.val; omega
  · -- slots 1 … 63: the memory's tail
    obtain rfl := List.mem_singleton.mp hp
    intro (x : S32x63x1024.Idx)
    obtain ⟨a, l, d, rfl⟩ : ∃ (a : Fin 32) (l : Fin 63) (d : Fin 1024), x = ix3 a l d := ⟨x 0, x 1, x 2, eq_ix3 x⟩
    show k0_pay1 (View.ld x1 (Rect.unit (s := S64x1024) ![1, 0] S63x1024.size inb_S64x1024_S63x1024_1_0)) (ix3 a l d) = windowBlock x0 x1 _
    refine (tail_payload _ a l d).trans (Eq.symm ((windowBlock_tail x0 x1 _ ?_).trans ?_))
    · show 1 + 1 * l.val ≠ 0
      omega
    · refine congrArg x1 (funext fun ax => Fin.ext ?_)
      match ax with
      | ⟨0, _⟩ => rfl
      | ⟨1, _⟩ => rfl

end Cert.KernelIdeal.Block

end
-- ==== Proof.KernelWindow.lean ====
/-
  The kernel's output array after the run is the window function of its arguments.

  The grid has 64 points; point `t` works on steps `32 t … 32 t + 31`: it is handed input rows `32 t + a`
  (`a < 32`) and the whole memory, and what it leaves (the block-sized window function, from the body's two stores)
  is written back to steps `32 t + a` of the output. Read at `(32 t + a, l, d)`, the block-sized function of the
  point's rows is the full window function of the arrays. The 64 blocks cover all 2048 steps (step `s` is in the
  block of point `s / 32`), so the array ends holding the window function everywhere.
-/
import proofs.«151617_j72627896975940_1_alg».proof.Proof.Gen.KernelIdeal.Value
import proofs.«151617_j72627896975940_1_alg».proof.Proof.KernelBlock

noncomputable section

namespace Cert.KernelIdeal.History

open Cert.KernelIdeal Cert.KernelIdeal.Gen Cert.KernelIdeal.Block Cert.SlidingWindow
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The block indices at point `t`: the inputs' and the output's blocks move with `t` along the steps, the memory's
    block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the window function of the argument arrays. -/
theorem flushed_eq (c : Dev nD) (t : Fin cfg0.N) :
    (dats m 0 c).flushed 2 t = ((cfg0.win 2).blk t).view.read (Elt F) (window (V m c main_arg0) (V m c main_arg1)) := by
  rw [Value.flushed2_A, block_eq]
  obtain ⟨e00, e01, e10, e11, e20, e21, e22⟩ := idx_facts t
  funext y
  show windowBlock (iblk m c 0 t) (iblk m c 1 t) y = window (V m c main_arg0) (V m c main_arg1) (((cfg0.win 2).blk t).view.emb y)
  have hc : ((((cfg0.win 2).blk t).view.emb y) 1).val = (y 1).val := by
    show win0_2.index t (1 : Fin 3) * 64 + 1 * (y 1).val = (y 1).val
    omega
  unfold windowBlock window
  by_cases h : (y 1).val = 0
  · -- slot 0: row `a` of the point's input block is row `32 t + a` of the inputs
    rw [if_pos h, if_pos (hc.trans h)]
    show V m c main_arg0 (((cfg0.win 0).blk t).view.emb (ix2 (y 0) (y 2))) = V m c main_arg0 _
    refine congrArg _ (funext fun a => Fin.ext ?_)
    match a with
    | ⟨0, _⟩ =>
      show win0_0.index t (0 : Fin 2) * 32 + 1 * (y 0).val = win0_2.index t (0 : Fin 3) * 32 + 1 * (y 0).val
      omega
    | ⟨1, _⟩ =>
      show win0_0.index t (1 : Fin 2) * 1024 + 1 * (y 2).val = win0_2.index t (2 : Fin 3) * 1024 + 1 * (y 2).val
      omega
  · -- slots 1 … 63: the memory's block is the whole memory
    rw [if_neg h, if_neg (fun h' => h (hc.symm.trans h'))]
    show V m c main_arg1 (((cfg0.win 1).blk t).view.emb (ix2 (y 1) (y 2))) = V m c main_arg1 _
    refine congrArg _ (funext fun a => Fin.ext ?_)
    match a with
    | ⟨0, _⟩ =>
      show win0_1.index t (0 : Fin 2) * 64 + 1 * (y 1).val = win0_2.index t (1 : Fin 3) * 64 + 1 * (y 1).val
      omega
    | ⟨1, _⟩ =>
      show win0_1.index t (1 : Fin 2) * 1024 + 1 * (y 2).val = win0_2.index t (2 : Fin 3) * 1024 + 1 * (y 2).val
      omega

/-- An index of the output array is in point `t`'s block iff each coordinate is in the block's range on its axis. -/
theorem mem_blk (t : Fin cfg0.N) (i : S2048x64x1024.Idx) :
    i ∈ ((cfg0.win 2).blk t).view.set ↔ ∀ a : Fin 3, win0_2.index t a * S32x64x1024.size a ≤ (i a).val ∧ (i a).val < win0_2.index t a * S32x64x1024.size a + S32x64x1024.size a := by
  show i ∈ ((View.whole main_v0).slice (win0_2.rect t)).set ↔ _
  rw [View.set_slice_whole, Rect.mem_set_unit]
  exact Iff.rfl

/-- Every index of the output array is in the block of the point that owns its step: step `s` belongs to point `s / 32`. -/
theorem cover (i : S2048x64x1024.Idx) : ∃ t : Fin cfg0.N, (cfg0.win 2).flush t = true ∧ i ∈ ((cfg0.win 2).blk t).view.set := by
  have h0 : (i 0).val < 2048 := (i 0).isLt
  have h1 : (i 1).val < 64 := (i 1).isLt
  have h2 : (i 2).val < 1024 := (i 2).isLt
  obtain ⟨t, ht⟩ : ∃ t : Fin cfg0.N, t.val = (i 0).val / 32 := ⟨⟨(i 0).val / 32, by show (i 0).val / 32 < 64; omega⟩, rfl⟩
  refine ⟨t, flush0_2 t, ?_⟩
  rw [mem_blk]
  obtain ⟨-, -, -, -, e20, e21, e22⟩ := idx_facts t
  intro a
  match a with
  | ⟨0, _⟩ =>
    show win0_2.index t (0 : Fin 3) * 32 ≤ (i 0).val ∧ (i 0).val < win0_2.index t (0 : Fin 3) * 32 + 32
    omega
  | ⟨1, _⟩ =>
    show win0_2.index t (1 : Fin 3) * 64 ≤ (i 1).val ∧ (i 1).val < win0_2.index t (1 : Fin 3) * 64 + 64
    omega
  | ⟨2, _⟩ =>
    show win0_2.index t (2 : Fin 3) * 1024 ≤ (i 2).val ∧ (i 2).val < win0_2.index t (2 : Fin 3) * 1024 + 1024
    omega

/-- THE OUTPUT ARRAY after the run: the window function of the argument arrays. -/
theorem final (c : Dev nD) :
    (dats m 0 c).arrAt 2 cfg0.N = window (m ((c : Thread nD τ).loc main_arg0)) (m ((c : Thread nD τ).loc main_arg1)) :=
  (dats m 0 c).arrAt_eq_of_cover 2 (window (V m c main_arg0) (V m c main_arg1)) (fun t _ => flushed_eq m c t) cover

/-- The kernel's run: it terminates with its result at the window function of the arguments, the arguments unchanged. -/
theorem run : θ_run defs (onTc (τ := τ) (main (F := F))) ⟨m, fun _ => 0, ρ⟩ fun r => ∀ c : Dev nD,
      r.2.mem ((c : Thread nD τ).loc main_v0) = window (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.History

end
-- ==== Proof.ReferenceWindow.lean ====
/-
  The reference computes the window function.

  The reference builds the history `[2048, 64, 1024]` by joining, along the slot axis, the inputs given a middle
  unit axis (one slot) with rows 1 … 63 of the memory broadcast over the 2048 steps (63 slots). At an index whose slot
  is 0 the joined array reads its first part, the input row of that step; at a slot `l ≥ 1` it reads the second
  part at slot `l - 1`, which is row `1 + (l - 1) = l` of the memory. That is the window function, index by index.
-/
import proofs.«151617_j72627896975940_1_alg».proof.Proof.Gen.ReferenceIdeal.Read
import proofs.«151617_j72627896975940_1_alg».proof.Proof.WindowSpec
import Idealize.ShloMosaic.Lib.ValueIdx
import Idealize.ShloMosaic.Lib.Pipeline.Value

noncomputable section

namespace Cert.ReferenceIdeal.History

open Cert.ReferenceIdeal Cert.ReferenceIdeal.Gen Cert.ReferenceIdeal.Read Cert.SlidingWindow
open Idealize.ShloMosaic Idealize.ShloMosaic.TcCoe Idealize.ShloMosaic.ValueIdx

variable {F : FTy → Type} [FloatOps F]

/-- The reference's result, as a function of its two arguments, is the window function. -/
theorem reference_eq (x0 : (⟨S2048x1024, .f32⟩ : BufTy).Contents (Elt F)) (x1 : (⟨S64x1024, .f32⟩ : BufTy).Contents (Elt F)) :
    val_main_v5 (F := F) x0 x1 = window x0 x1 := by
  funext i
  unfold val_main_v5
  have hl : (i 1).val < 64 := (i 1).isLt
  by_cases h : (i 1).val = 0
  · -- slot 0: the first part of the join, the inputs with a middle unit axis
    rw [window_slot0 x0 x1 i h]
    refine (concatenate_pair_apply_left _ (val_main_v4 (F := F) x0) (val_main_v3 (F := F) x1)
      concatenates_S2048x1x1024_S2048x63x1024_S2048x64x1024_d1 i rfl (ix3 (i 0) (0 : Fin 1) (i 2)) fun b => ?_).trans ?_
    · match b with
      | ⟨0, _⟩ => rfl
      | ⟨1, _⟩ => exact h.symm
      | ⟨2, _⟩ => rfl
    · rw [val_main_v4_apply]
      refine congrArg x0 (funext fun a => Fin.ext ?_)
      match a with
      | ⟨0, _⟩ => rfl
      | ⟨1, _⟩ => rfl
  · -- slots 1 … 63: the second part, the memory's tail broadcast over the steps
    rw [window_tail x0 x1 i h]
    refine (concatenate_pair_apply_right _ (val_main_v4 (F := F) x0) (val_main_v3 (F := F) x1)
      concatenates_S2048x1x1024_S2048x63x1024_S2048x64x1024_d1 i rfl rfl
      (ix3 (i 0) (⟨(i 1).val - 1, by omega⟩ : Fin 63) (i 2)) (fun b hb => ?_) ?_).trans ?_
    · match b with
      | ⟨0, _⟩ => rfl
      | ⟨1, _⟩ => exact absurd (Fin.ext rfl) hb
      | ⟨2, _⟩ => rfl
    · show (i 1).val - 1 + 1 = (i 1).val
      omega
    · rw [val_main_v3_apply, val_main_v1_apply, val_main_v0_apply]
      refine congrArg x1 (funext fun a => Fin.ext ?_)
      match a with
      | ⟨0, _⟩ => show 1 + ((i 1).val - 1) = (i 1).val; omega
      | ⟨1, _⟩ => rfl

end Cert.ReferenceIdeal.History

end
-- ==== Proof.lean ====
/-
  The sliding-window memory: a kernel that fills the history `[2048, 64, 1024]` block by block, against the
  reference that joins the inputs with the broadcast tail of the initial memory.

  Both programs compute the window function of Proof/WindowSpec.lean: slot 0 of step `t` is input row `t`, slot
  `l ≥ 1` is row `l` of the initial memory. The kernel does so 32 steps at a time (Proof/KernelBlock.lean: one grid
  point's block; Proof/KernelWindow.lean: the 64 blocks cover the array), the reference by a slice, three broadcasts
  and a join along the slot axis (Proof/ReferenceWindow.lean). Only values are moved, no arithmetic is done, so the
  two results agree on every extended real and the finiteness of the inputs is never used. The idealized kernel is
  the kernel's own text read at the ideal instance (no rewrite was applied), so `preserves` has nothing to state.
-/
import proofs.«151617_j72627896975940_1_alg».proof.Defs
import proofs.«151617_j72627896975940_1_alg».proof.Proof.Gen.Kernel
import proofs.«151617_j72627896975940_1_alg».proof.Proof.Gen.Kernel.Skeleton
import proofs.«151617_j72627896975940_1_alg».proof.Proof.Gen.Kernel.Launch
import proofs.«151617_j72627896975940_1_alg».proof.Proof.Gen.Kernel.Points
import proofs.«151617_j72627896975940_1_alg».proof.Proof.Gen.Kernel.Frame
import proofs.«151617_j72627896975940_1_alg».proof.Proof.Gen.KernelIdeal
import proofs.«151617_j72627896975940_1_alg».proof.Proof.Gen.KernelIdeal.Skeleton
import proofs.«151617_j72627896975940_1_alg».proof.Proof.Gen.KernelIdeal.Launch
import proofs.«151617_j72627896975940_1_alg».proof.Proof.Gen.KernelIdeal.Points
import proofs.«151617_j72627896975940_1_alg».proof.Proof.Gen.KernelIdeal.Frame
import proofs.«151617_j72627896975940_1_alg».proof.Proof.Gen.ReferenceIdeal
import proofs.«151617_j72627896975940_1_alg».proof.Proof.Gen.Pre_finite_inputs
import proofs.«151617_j72627896975940_1_alg».proof.Proof.Gen.KernelIdeal.Value
import proofs.«151617_j72627896975940_1_alg».proof.Proof.Gen.ReferenceIdeal.Run
import proofs.«151617_j72627896975940_1_alg».proof.Proof.Gen.ReferenceIdeal.Read
import proofs.«151617_j72627896975940_1_alg».proof.Proof.WindowSpec
import proofs.«151617_j72627896975940_1_alg».proof.Proof.KernelBlock
import proofs.«151617_j72627896975940_1_alg».proof.Proof.KernelWindow
import proofs.«151617_j72627896975940_1_alg».proof.Proof.ReferenceWindow
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's output array and the reference's result both end
    at the window function of those arguments. -/
theorem algebraic : Cert.algebraic_KernelIdeal_ReferenceIdeal := by
  intro m ρ m' ρ' _ hagree
  refine ⟨_, Cert.KernelIdeal.History.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.History.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
